-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S11008x32x1 : S_.BroadcastsInDim S11008x32x1 (![] : Fin 0 → Fin S11008x32x1.rank)
  reducesTo_S11008x32x1_S_d0_1_2 : S11008x32x1.ReducesTo [0, 1, 2] S_
  bcast_S_S4096 : S_.BroadcastsInDim S4096 (![] : Fin 0 → Fin S4096.rank)
  reducesTo_S4096_S_d0 : S4096.ReducesTo [0] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S2048x4096 .f32) (main_arg1 : IVec S11008x32x128 32) (main_arg2 : FVec F S11008x32x1 .f32) (main_arg3 : FVec F S4096 .f32) (main_arg4 : FVec F S11008 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S11008x32x1 .f32 := Host.absf main_arg2
  let main_cst_0 : FVec F S_ .f32 := constant S_ .f32 0x7F800000#32
  let main_v5 : FVec F S11008x32x1 .f32 := broadcastInDim S11008x32x1 ![] bcast_S_S11008x32x1 main_cst_0
  let main_v6 : IVec S11008x32x1 1 := cmpf .olt main_v4 main_v5
  let main_c_1 : IVec S_ 1 := constantI S_ 1 1#1
  let main_v7 : IVec S_ 1 := (fun x v => Host.reduce IntOp.andi x v reducesTo_S11008x32x1_S_d0_1_2 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S2048x11008 : Shape := ⟨2, ![2048, 11008]⟩
abbrev S256x4096 : Shape := ⟨2, ![256, 4096]⟩
abbrev S256x32x128 : Shape := ⟨3, ![256, 32, 128]⟩
abbrev S256x32x1 : Shape := ⟨3, ![256, 32, 1]⟩
abbrev S256 : Shape := ⟨1, ![256]⟩
abbrev S256x256 : Shape := ⟨2, ![256, 256]⟩
abbrev S1x4096 : Shape := ⟨2, ![1, 4096]⟩
abbrev S4096x256 : Shape := ⟨2, ![4096, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S11008x32x128, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S2048x11008, .f32⟩
  | .local _ .vmem, ⟨0, _⟩ => ⟨S256x4096, .f32⟩
  | .local _ .vmem, ⟨1, _⟩ => ⟨S256x4096, .f32⟩
  | .local _ .vmem, ⟨2, _⟩ => ⟨S256x32x128, .i32⟩
  | .local _ .vmem, ⟨3, _⟩ => ⟨S256x32x128, .i32⟩
  | .local _ .vmem, ⟨4, _⟩ => ⟨S256x32x1, .f32⟩
  | .local _ .vmem, ⟨5, _⟩ => ⟨S256x32x1, .f32⟩
  | .local _ .vmem, ⟨6, _⟩ => ⟨S4096, .f32⟩
  | .local _ .vmem, ⟨7, _⟩ => ⟨S256, .f32⟩
  | .local _ .vmem, ⟨8, _⟩ => ⟨S256, .f32⟩
  | .local _ .vmem, ⟨9, _⟩ => ⟨S256x256, .f32⟩
  | .local _ .vmem, ⟨10, _⟩ => ⟨S256x256, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S4096_S4096_0 : ∀ a, (![0] : Fin 1 → Nat) a + S4096.size a ≤ S4096.size a
  h_S4096 : 0 < S4096.numel
  inb_S256x4096_S256x4096_0_0 : ∀ a, (![0, 0] : Fin 2 → Nat) a + S256x4096.size a ≤ S256x4096.size a
  h_S256x4096 : 0 < S256x4096.numel
  shapeCasts_S4096_S1x4096 : S4096.ShapeCasts S1x4096
  broadcasts_S1x4096_S256x4096 : S1x4096.Broadcasts S256x4096
  bitsLt_bf16_f32 : FTy.bits .bf16 < FTy.bits .f32
  inb_S256x32x128_S256x32x128_0_0_0 : ∀ a, (![0, 0, 0] : Fin 3 → Nat) a + S256x32x128.size a ≤ S256x32x128.size a
  h_S256x32x128 : 0 < S256x32x128.numel
  inb_S256x32x1_S256x32x1_0_0_0 : ∀ a, (![0, 0, 0] : Fin 3 → Nat) a + S256x32x1.size a ≤ S256x32x1.size a
  h_S256x32x1 : 0 < S256x32x1.numel
  broadcasts_S256x32x1_S256x32x128 : S256x32x1.Broadcasts S256x32x128
  shapeCasts_S256x32x128_S256x4096 : S256x32x128.ShapeCasts S256x4096
  transposes_S256x4096_p1_0_S4096x256 : S256x4096.Transposes [1, 0] S4096x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S2048x4096.size a
  hwx0_0 : ∀ i : grid0.Coords, EltTy.bits .f32 = 32 ∨ (Rect.block (s := S2048x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x128.size a ≤ S11008x32x128.size a
  hwx0_1 : ∀ i : grid0.Coords, EltTy.bits .i32 = 32 ∨ (Rect.block (s := S11008x32x128) S256x32x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32x1.size a ≤ S11008x32x1.size a
  hwx0_2 : ∀ i : grid0.Coords, EltTy.bits .f32 = 32 ∨ (Rect.block (s := S11008x32x1) S256x32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S2048x11008.size a
  hwx0_5 : ∀ i : grid0.Coords, EltTy.bits .f32 = 32 ∨ (Rect.block (s := S2048x11008) S256x256.size (cc0_transform_5 i) (hinb0_5 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4096 : Shape := ⟨2, ![2048, 4096]⟩
abbrev S11008x32x128 : Shape := ⟨3, ![11008, 32, 128]⟩
abbrev S11008x32x1 : Shape := ⟨3, ![11008, 32, 1]⟩
abbrev S4096 : Shape := ⟨1, ![4096]⟩
abbrev S11008 : Shape := ⟨1, ![11008]⟩
abbrev S11008x4096 : Shape := ⟨2, ![11008, 4096]⟩
abbrev S1x4096 : Shape := ⟨2, ![1, 4096]⟩
abbrev S4096x11008 : Shape := ⟨2, ![4096, 11008]⟩
abbrev S2048x11008 : Shape := ⟨2, ![2048, 11008]⟩
abbrev S1x11008 : Shape := ⟨2, ![1, 11008]⟩

abbrev nBuf : Space → Nat
  | .hbm => 17
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S11008x32x128, .i32⟩
  | .hbm, ⟨2, _⟩ => ⟨S11008x32x1, .f32⟩
  | .hbm, ⟨3, _⟩ => ⟨S4096, .f32⟩
  | .hbm, ⟨4, _⟩ => ⟨S11008, .f32⟩
  | .hbm, ⟨5, _⟩ => ⟨S11008x32x128, .f32⟩
  | .hbm, ⟨6, _⟩ => ⟨S11008x32x128, .f32⟩
  | .hbm, ⟨7, _⟩ => ⟨S11008x32x128, .f32⟩
  | .hbm, ⟨8, _⟩ => ⟨S11008x4096, .f32⟩
  | .hbm, ⟨9, _⟩ => ⟨S1x4096, .f32⟩
  | .hbm, ⟨10, _⟩ => ⟨S2048x4096, .f32⟩
  | .hbm, ⟨11, _⟩ => ⟨S2048x4096, .f32⟩
  | .hbm, ⟨12, _⟩ => ⟨S4096x11008, .f32⟩
  | .hbm, ⟨13, _⟩ => ⟨S2048x11008, .f32⟩
  | .hbm, ⟨14, _⟩ => ⟨S1x11008, .f32⟩
  | .hbm, ⟨15, _⟩ => ⟨S2048x11008, .f32⟩
  | .hbm, ⟨16, _⟩ => ⟨S2048x11008, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S2048x11008_0_1 : S1x11008.BroadcastsInDim S2048x11008 (![0, 1] : Fin 2 → Fin S2048x11008.rank)
  dot_S2048x4096_S4096x11008_S2048x11008_1_0_0_1_n_n_wf : DotDims.WF S2048x4096 S4096x11008 S2048x11008 [1] [0] [0] [1] [] []

variable [Facts₀]

def dot_S2048x4096_S4096x11008_S2048x11008_1_0_0_1_n_n : DotDims S2048x4096 S4096x11008 S2048x11008 where
  lhsContracting := [1]
  rhsContracting := [0]
  lhsNonContracting := [0]
  rhsNonContracting := [1]
  lhsBatch := []
  rhsBatch := []
  wf := dot_S2048x4096_S4096x11008_S2048x11008_1_0_0_1_n_n_wf

class Facts : Prop extends Facts₀ where

variable [Facts]
-- ==== Proof.LibPlainMatmul.lean ====
/-
  A plain matrix product read at an entry.  For the dimension numbers of an `M × K` by `K × N` product
  (`DotDims.plain`: the left operand contracted on its columns, the right on its rows, no batch axis), a
  `tpu.matmul` into the zero splat is, at the extended reals and at row `r`, column `c`, the sum over
  `k : Fin K` of the left operand at `(r, k)` times the right at `(k, c)`.  Nothing here names a program.
-/
import Idealize.ShloMosaic.PureOps.Ideal.Laws
import Idealize.ShloMosaic.Lib.ValueIdx

namespace Cert.PlainMatmul

open Idealize.ShloMosaic Idealize.ShloMosaic.ValueIdx

/-- The left operand's index of a plain product at output `(r, c)` and contraction coordinate `k` is `(r, k)`. -/
theorem lhsIdx_plain {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 r c) _).trans hk

/-- The right operand's index there is `(k, c)`. -/
theorem rhsIdx_plain {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 r c) _).trans hk
  | ⟨1, _⟩ => rfl

/-- A plain `tpu.matmul` into zeros, at entry `(r, c)`, is `∑ k, a (r, k) * b (k, c)` on the extended reals. -/
theorem matmul_plain_zero_apply {M K N : ℕ} {φ₁ φ₂ : FTy}
    (a : FVec Ideal ⟨2, ![M, K]⟩ φ₁) (b : FVec Ideal ⟨2, ![K, N]⟩ φ₂) (prec : Option ContractPrecision) (r : Fin M) (c : Fin N) :
    matmul (DotDims.plain M K N) prec a b (constant ⟨2, ![M, N]⟩ .f32 0x00000000#32) (ix2 r c)
      = ∑ k : Fin K, a (ix2 r k) * b (ix2 k c) := by
  show FloatOps.matmul (DotDims.plain M K N) prec a b (constant ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.PlainMatmul
-- ==== Proof.Spec.lean ====
/-
  The function both programs compute.  A weight matrix of `N` rows and 4096 columns is stored as signed integers
  in 32 groups of 128 columns, `wq (c, g, l)`, with one real scale per row and group, `sc (c, g, 0)`: the weight at
  row `c`, column `k` is the integer at group `k / 128`, lane `k % 128`, read as a real, times that group's scale.
  The activations `x (r, k)` are divided column by column by the smoothing vector `s k`.  The result at `(r, c)` is

      (∑ k < 4096, x (r, k) / s k * (wq (c, k / 128, k % 128) * sc (c, k / 128, 0))) + b c

  on the extended reals.  It is stated for any numbers of rows `M` (of `x`) and `N` (of the weights), so that the same
  function describes one 256 × 256 tile of the result from a tile's rows of `x` and rows of the weights, and the whole
  2048 × 11008 result from the whole arrays: an entry of the result depends on one row of `x` and one row of the weights,
  so a tile of the whole result IS the function of the tile's rows (`entry_congr`).
-/
import Idealize.ShloMosaic.PureOps.Ideal
import Idealize.ShloMosaic.Lib.ValueIdx

noncomputable section

namespace Cert.GroupDequant

open Idealize.ShloMosaic Idealize.ShloMosaic.ValueIdx

/-- The group a column belongs to. -/
abbrev grp (k : Fin 4096) : Fin 32 := ⟨k.val / 128, by have := k.isLt; omega⟩

/-- A column's position inside its group. -/
abbrev lane (k : Fin 4096) : Fin 128 := ⟨k.val % 128, Nat.mod_lt _ (by decide)⟩

/-- The dequantised weight at row `c`, column `k`: the stored integer, as a real, times its group's scale. -/
def weight {N : ℕ} (wq : (⟨3, ![N, 32, 128]⟩ : Shape).Idx → BitVec 32) (sc : (⟨3, ![N, 32, 1]⟩ : Shape).Idx → EReal)
    (c : Fin N) (k : Fin 4096) : EReal :=
  FloatOps.sitofp (F := Ideal) .f32 (wq (ix3 c (grp k) (lane k))) * sc (ix3 c (grp k) (0 : Fin 1))

/-- The smoothed activation at row `r`, column `k`. -/
def act {M : ℕ} (x : (⟨2, ![M, 4096]⟩ : Shape).Idx → EReal) (s : (⟨1, ![4096]⟩ : Shape).Idx → EReal)
    (r : Fin M) (k : Fin 4096) : EReal :=
  Ideal.div (x (ix2 r k)) (s (ix1 k))

/-- The result at row `r`, column `c`. -/
def entry {M N : ℕ} (x : (⟨2, ![M, 4096]⟩ : Shape).Idx → EReal) (s : (⟨1, ![4096]⟩ : Shape).Idx → EReal)
    (wq : (⟨3, ![N, 32, 128]⟩ : Shape).Idx → BitVec 32) (sc : (⟨3, ![N, 32, 1]⟩ : Shape).Idx → EReal)
    (b : (⟨1, ![N]⟩ : Shape).Idx → EReal) (r : Fin M) (c : Fin N) : EReal :=
  (∑ k : Fin 4096, act x s r k * weight wq sc c k) + b (ix1 c)

/-- An entry reads one row of the activations and one row of the weights, scales and bias: two sets of arrays that
    agree on those rows (under any renumbering of the rows) give the same entry. -/
theorem entry_congr {M N M' N' : ℕ}
    (x : (⟨2, ![M, 4096]⟩ : Shape).Idx → EReal) (s : (⟨1, ![4096]⟩ : Shape).Idx → EReal)
    (wq : (⟨3, ![N, 32, 128]⟩ : Shape).Idx → BitVec 32) (sc : (⟨3, ![N, 32, 1]⟩ : Shape).Idx → EReal)
    (b : (⟨1, ![N]⟩ : Shape).Idx → EReal)
    (x' : (⟨2, ![M', 4096]⟩ : Shape).Idx → EReal) (s' : (⟨1, ![4096]⟩ : Shape).Idx → EReal)
    (wq' : (⟨3, ![N', 32, 128]⟩ : Shape).Idx → BitVec 32) (sc' : (⟨3, ![N', 32, 1]⟩ : Shape).Idx → EReal)
    (b' : (⟨1, ![N']⟩ : Shape).Idx → EReal)
    (r : Fin M) (c : Fin N) (r' : Fin M') (c' : Fin N')
    (hx : ∀ k : Fin 4096, x (ix2 r k) = x' (ix2 r' k)) (hs : ∀ k : Fin 4096, s (ix1 k) = s' (ix1 k))
    (hwq : ∀ (g : Fin 32) (l : Fin 128), wq (ix3 c g l) = wq' (ix3 c' g l))
    (hsc : ∀ g : Fin 32, sc (ix3 c g (0 : Fin 1)) = sc' (ix3 c' g (0 : Fin 1)))
    (hb : b (ix1 c) = b' (ix1 c')) :
    entry x s wq sc b r c = entry x' s' wq' sc' b' r' c' := by
  unfold entry act weight
  rw [hb]
  refine congrArg (· + b' (ix1 c')) (Finset.sum_congr rfl fun k _ => ?_)
  rw [hx k, hs k, hwq (grp k) (lane k), hsc (grp k)]

/-- The whole 2048 × 11008 result as one function of the five argument arrays. -/
def whole (x : (⟨2, ![2048, 4096]⟩ : Shape).Idx → EReal) (s : (⟨1, ![4096]⟩ : Shape).Idx → EReal)
    (wq : (⟨3, ![11008, 32, 128]⟩ : Shape).Idx → BitVec 32) (sc : (⟨3, ![11008, 32, 1]⟩ : Shape).Idx → EReal)
    (b : (⟨1, ![11008]⟩ : Shape).Idx → EReal) : (⟨2, ![2048, 11008]⟩ : Shape).Idx → EReal :=
  fun i => entry x s wq sc b (i 0) (i 1)

theorem whole_apply (x : (⟨2, ![2048, 4096]⟩ : Shape).Idx → EReal) (s : (⟨1, ![4096]⟩ : Shape).Idx → EReal)
    (wq : (⟨3, ![11008, 32, 128]⟩ : Shape).Idx → BitVec 32) (sc : (⟨3, ![11008, 32, 1]⟩ : Shape).Idx → EReal)
    (b : (⟨1, ![11008]⟩ : Shape).Idx → EReal) (r : Fin 2048) (c : Fin 11008) :
    whole x s wq sc b (ix2 r c) = entry x s wq sc b r c := rfl

end Cert.GroupDequant

end
-- ==== Proof.Tile.lean ====
/-
  What the kernel body stores for one grid point, entry by entry.  From the tile's 256 rows of the activations `x`,
  the whole smoothing vector `s`, the tile's 256 rows of the integer weights `wq` and of their scales `sc`, and the
  tile's 256 bias entries `b`, the stored 256 × 256 value at `(p, q)` is

      (∑ k < 4096, x (p, k) / s k * (wq (q, k / 128, k % 128) * sc (q, k / 128, 0))) + b q :

  the smoothing vector is laid out as one row and broadcast over the rows; the scales are broadcast along the lanes of
  each group; the product [256, 32, 128] is re-laid as [256, 4096] (row-major: column `k` is group `k / 128`, lane
  `k % 128`) and transposed; the matrix product into a zero accumulator is the sum over the 4096 columns; roundings to
  bf16 are the identity on the extended reals; the bias is laid out as one row and broadcast over the rows.
-/
import proofs.«174794_j20847771255042_1_alg».proof.Proof.Gen.KernelIdeal.Skeleton
import proofs.«174794_j20847771255042_1_alg».proof.Proof.LibPlainMatmul
import proofs.«174794_j20847771255042_1_alg».proof.Proof.Spec
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx Cert.GroupDequant

/-- A vector of length `n` laid out as one row and broadcast over `a` rows reads, at `(p, k)`, the vector at `k`. -/
theorem row_bcast_apply {a n : ℕ} (v : FVec Ideal ⟨1, ![n]⟩ .f32) (h1 : (⟨1, ![n]⟩ : Shape).ShapeCasts ⟨2, ![1, n]⟩)
    (h2 : (⟨2, ![1, n]⟩ : Shape).Broadcasts ⟨2, ![a, n]⟩) (p : Fin a) (k : Fin n) :
    broadcastTo ⟨2, ![a, n]⟩ (shapeCast ⟨2, ![1, n]⟩ v h1) h2 (ix2 p k) = v (ix1 k) :=
  (broadcastTo_1b_ab_apply _ h2 p k).trans (shapeCast_a_1a_apply v h1 _ k)

/-- The dequantised weights of the tile, re-laid as a [256, 4096] matrix, at row `q`, column `k`. -/
theorem wtile_apply (v6 : IVec S256x32x128 32) (v8 : FVec Ideal S256x32x1 .f32)
    (hb : S256x32x1.Broadcasts S256x32x128) (hc : S256x32x128.ShapeCasts S256x4096) (q : Fin 256) (k : Fin 4096) :
    shapeCast S256x4096 (mulf (sitofp (F := Ideal) .f32 v6) (broadcastTo S256x32x128 v8 hb)) hc (ix2 q k)
      = weight v6 v8 q k := by
  refine (shapeCast_apply _ hc (ix2 q k) (ix3 q (grp k) (lane k)) ?_).trans ?_
  · rw [Shape.rowMajor_val_three, Shape.rowMajor_val_two]
    have hk : k.val < 4096 := k.isLt
    show (q.val * 32 + k.val / 128) * 128 + k.val % 128 = q.val * 4096 + k.val
    omega
  · unfold weight
    refine congrArg (FloatOps.sitofp (F := Ideal) .f32 (v6 (ix3 q (grp k) (lane k))) * ·) ?_
    refine broadcastTo_apply v8 hb (ix3 q (grp k) (lane k)) (ix3 q (grp k) (0 : Fin 1)) fun a => ?_
    match a with
    | ⟨0, _⟩ => show q.val = if (256 : Nat) = 1 then 0 else q.val; rw [if_neg (by decide)]
    | ⟨1, _⟩ => show k.val / 128 = if (32 : Nat) = 1 then 0 else k.val / 128; rw [if_neg (by decide)]
    | ⟨2, _⟩ => show 0 = if (1 : Nat) = 1 then 0 else k.val % 128; rw [if_pos rfl]

/-- The body's matrix product is a plain 256 × 4096 by 4096 × 256 product into zeros. -/
theorem tile_matmul_apply (a : FVec Ideal S256x4096 .bf16) (b : FVec Ideal S4096x256 .bf16) (p q : Fin 256) :
    matmul dot_S256x4096_S4096x256_S256x256_1_0_0_1_n_n none a b (constant S256x256 .f32 0x00000000#32) (ix2 p q)
      = ∑ k : Fin 4096, a (ix2 p k) * b (ix2 k q) :=
  Cert.PlainMatmul.matmul_plain_zero_apply a b none p q

/-- THE STORED VALUE AT AN ENTRY: the specification's `entry` of the loaded blocks. -/
theorem pay_apply (v0 : Vec Ideal S4096 .f32) (v1 : Vec Ideal S256x4096 .f32) (v6 : Vec Ideal S256x32x128 .i32)
    (v8 : Vec Ideal S256x32x1 .f32) (v15 : Vec Ideal S256 .f32) (p q : Fin 256) :
    k0_pay1 (F := Ideal) v0 v1 v6 v8 v15 (ix2 p q) = entry v1 v0 v6 v8 v15 p q := by
  unfold k0_pay1 entry
  refine congrArg₂ (· + ·) ?_ ?_
  · refine (tile_matmul_apply _ _ p q).trans (Finset.sum_congr rfl fun k _ => ?_)
    refine congrArg₂ (· * ·) ?_ ?_
    · unfold act
      exact congrArg (Ideal.div (v1 (ix2 p k))) (row_bcast_apply v0 _ _ p k)
    · refine (transpose_ix2_apply _ _ k q).trans ?_
      exact wtile_apply v6 v8 _ _ q k
  · exact row_bcast_apply v15 _ _ p q

end Cert.KernelIdeal.Tile

end
-- ==== Proof.Whole.lean ====
/-
  From tiles to the whole result.  Grid point `t` (of 8 × 43 = 344, row-major) works on row tile `t / 43` of the
  activations and column tile `t % 43` of the weights, scales and bias, each 256 wide, with the smoothing vector
  whole; it writes back tile `(t / 43, t % 43)` of the result.  An entry of the result depends on one row of the
  activations and one row of the weights, so what point `t` writes back — the specification's `entry` of its tiles, by
  the body's value — is tile `t` of the specification's function of the whole arrays.  The 344 tiles cover the
  2048 × 11008 result (entry `(r, c)` lies in the tile of point `r / 256 * 43 + c / 256`), so after the run the result
  array holds that function.
-/
import proofs.«174794_j20847771255042_1_alg».proof.Proof.Gen.KernelIdeal.Value
import proofs.«174794_j20847771255042_1_alg».proof.Proof.Tile

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.GroupDequant
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The specification's function of the five argument arrays as launched. -/
abbrev G (c : Dev nD) : S2048x11008.Idx → EReal :=
  whole (m ((c : Thread nD τ).loc main_arg0)) (m ((c : Thread nD τ).loc main_arg3)) (m ((c : Thread nD τ).loc main_arg1))
    (m ((c : Thread nD τ).loc main_arg2)) (m ((c : Thread nD τ).loc main_arg4))

/-- The printed index maps over the grid: point `t` takes row tile `t / 43` of the activations and of the result, column
    tile `t % 43` of the weights, scales, bias and result, and the smoothing vector whole. -/
theorem idx_facts : ∀ t : Fin cfg0.N,
    win0_0.index t (0 : Fin 2) = t.val / 43 ∧ win0_0.index t (1 : Fin 2) = 0
    ∧ win0_1.index t (0 : Fin 3) = t.val % 43 ∧ win0_1.index t (1 : Fin 3) = 0 ∧ win0_1.index t (2 : Fin 3) = 0
    ∧ win0_2.index t (0 : Fin 3) = t.val % 43 ∧ win0_2.index t (1 : Fin 3) = 0 ∧ win0_2.index t (2 : Fin 3) = 0
    ∧ win0_3.index t (0 : Fin 1) = 0
    ∧ win0_4.index t (0 : Fin 1) = t.val % 43
    ∧ win0_5.index t (0 : Fin 2) = t.val / 43 ∧ win0_5.index t (1 : Fin 2) = t.val % 43 :=
  (by decide +kernel : ∀ t : Fin grid0.N, _)

/-! ## Each input tile as rows of its argument array -/

/-- Row `p` of point `t`'s activation tile is row `t / 43 * 256 + p` of the activations. -/
theorem xblk_apply (c : Dev nD) (t : Fin cfg0.N) (p : Fin 256) (k : Fin 4096) (R : Fin 2048)
    (hR : R.val = t.val / 43 * 256 + p.val) :
    (iblk m c 0 t : Vec Ideal S256x4096 .f32) (ix2 p k)
      = (m ((c : Thread nD τ).loc main_arg0) : Vec Ideal S2048x4096 .f32) (ix2 R k) := by
  obtain ⟨e0, e1, -⟩ := idx_facts t
  unfold iblk
  rw [View.read_apply]
  show V m c main_arg0 _ = m (c.tc.loc main_arg0) _
  unfold V
  congr 1
  funext a
  apply Fin.ext
  match a with
  | ⟨0, _⟩ => show win0_0.index t 0 * 256 + 1 * p.val = R.val; rw [e0, hR]; omega
  | ⟨1, _⟩ => show win0_0.index t 1 * 4096 + 1 * k.val = k.val; rw [e1]; omega

/-- Row `q` of point `t`'s weight tile is row `t % 43 * 256 + q` of the integer weights. -/
theorem wblk_apply (c : Dev nD) (t : Fin cfg0.N) (q : Fin 256) (g : Fin 32) (l : Fin 128) (C : Fin 11008)
    (hC : C.val = t.val % 43 * 256 + q.val) :
    (iblk m c 1 t : Vec Ideal S256x32x128 .i32) (ix3 q g l)
      = (m ((c : Thread nD τ).loc main_arg1) : Vec Ideal S11008x32x128 .i32) (ix3 C g l) := by
  obtain ⟨-, -, e0, e1, e2, -⟩ := idx_facts t
  unfold iblk
  rw [View.read_apply]
  show V m c main_arg1 _ = m (c.tc.loc main_arg1) _
  unfold V
  congr 1
  funext a
  apply Fin.ext
  match a with
  | ⟨0, _⟩ => show win0_1.index t 0 * 256 + 1 * q.val = C.val; rw [e0, hC]; omega
  | ⟨1, _⟩ => show win0_1.index t 1 * 32 + 1 * g.val = g.val; rw [e1]; omega
  | ⟨2, _⟩ => show win0_1.index t 2 * 128 + 1 * l.val = l.val; rw [e2]; omega

/-- Row `q` of point `t`'s scale tile is row `t % 43 * 256 + q` of the scales. -/
theorem scblk_apply (c : Dev nD) (t : Fin cfg0.N) (q : Fin 256) (g : Fin 32) (C : Fin 11008)
    (hC : C.val = t.val % 43 * 256 + q.val) :
    (iblk m c 2 t : Vec Ideal S256x32x1 .f32) (ix3 q g (0 : Fin 1))
      = (m ((c : Thread nD τ).loc main_arg2) : Vec Ideal S11008x32x1 .f32) (ix3 C g (0 : Fin 1)) := by
  obtain ⟨-, -, -, -, -, e0, e1, e2, -⟩ := idx_facts t
  unfold iblk
  rw [View.read_apply]
  show V m c main_arg2 _ = m (c.tc.loc main_arg2) _
  unfold V
  congr 1
  funext a
  apply Fin.ext
  match a with
  | ⟨0, _⟩ => show win0_2.index t 0 * 256 + 1 * q.val = C.val; rw [e0, hC]; omega
  | ⟨1, _⟩ => show win0_2.index t 1 * 32 + 1 * g.val = g.val; rw [e1]; omega
  | ⟨2, _⟩ => show win0_2.index t 2 * 1 + 1 * 0 = 0; rw [e2]

/-- Every point's smoothing block is the whole smoothing vector. -/
theorem sblk_apply (c : Dev nD) (t : Fin cfg0.N) (k : Fin 4096) :
    (iblk m c 3 t : Vec Ideal S4096 .f32) (ix1 k) = (m ((c : Thread nD τ).loc main_arg3) : Vec Ideal S4096 .f32) (ix1 k) := by
  obtain ⟨-, -, -, -, -, -, -, -, e0, -⟩ := idx_facts t
  unfold iblk
  rw [View.read_apply]
  show V m c main_arg3 _ = m (c.tc.loc main_arg3) _
  unfold V
  congr 1
  funext a
  apply Fin.ext
  match a with
  | ⟨0, _⟩ => show win0_3.index t 0 * 4096 + 1 * k.val = k.val; rw [e0]; omega

/-- Entry `q` of point `t`'s bias block is entry `t % 43 * 256 + q` of the bias. -/
theorem bblk_apply (c : Dev nD) (t : Fin cfg0.N) (q : Fin 256) (C : Fin 11008) (hC : C.val = t.val % 43 * 256 + q.val) :
    (iblk m c 4 t : Vec Ideal S256 .f32) (ix1 q) = (m ((c : Thread nD τ).loc main_arg4) : Vec Ideal S11008 .f32) (ix1 C) := by
  obtain ⟨-, -, -, -, -, -, -, -, -, e0, -⟩ := idx_facts t
  unfold iblk
  rw [View.read_apply]
  show V m c main_arg4 _ = m (c.tc.loc main_arg4) _
  unfold V
  congr 1
  funext a
  apply Fin.ext
  match a with
  | ⟨0, _⟩ => show win0_4.index t 0 * 256 + 1 * q.val = C.val; rw [e0, hC]; omega

/-! ## What a point writes back -/

/-- WHAT POINT `t` WRITES BACK is tile `t` of the specification's function of the argument arrays. -/
theorem flushed_eq (c : Dev nD) (t : Fin cfg0.N) :
    (dats m 0 c).flushed 5 t = ((cfg0.win 5).blk t).view.read (Elt Ideal) (G m c) := by
  rw [flushed5]
  unfold out0_5
  rw [View.canon_unit_zero hz2]
  simp only [View.ld_unit_zero (S := S4096) hz1, View.ld_unit_zero (S := S256x4096) hz2,
    View.ld_unit_zero (S := S256x32x128) hz3, View.ld_unit_zero (S := S256x32x1) hz3, View.ld_unit_zero (S := S256) hz1]
  obtain ⟨-, -, -, -, -, -, -, -, -, -, e0, e1⟩ := idx_facts t
  have hN : cfg0.N = 344 := N_0
  have ht : t.val < 344 := hN ▸ t.isLt
  refine funext fun (j : S256x256.Idx) => ?_
  obtain ⟨p, q, rfl⟩ : ∃ (p q : Fin 256), j = ix2 p q := ⟨j 0, j 1, eq_ix2 j⟩
  have hp : p.val < 256 := p.isLt
  have hq : q.val < 256 := q.isLt
  let R : Fin 2048 := ⟨t.val / 43 * 256 + p.val, by omega⟩
  let C : Fin 11008 := ⟨t.val % 43 * 256 + q.val, by omega⟩
  have hemb : ((cfg0.win 5).blk t).view.emb (ix2 p q) = (ix2 R C : S2048x11008.Idx) := by
    funext a
    apply Fin.ext
    match a with
    | ⟨0, _⟩ => show win0_5.index t 0 * 256 + 1 * p.val = t.val / 43 * 256 + p.val; rw [e0]; omega
    | ⟨1, _⟩ => show win0_5.index t 1 * 256 + 1 * q.val = t.val % 43 * 256 + q.val; rw [e1]; omega
  show k0_pay1 (F := Ideal) (iblk m c 3 t) (iblk m c 0 t) (iblk m c 1 t) (iblk m c 2 t) (iblk m c 4 t) (ix2 p q)
    = G m c (((cfg0.win 5).blk t).view.emb (ix2 p q))
  rw [hemb]
  refine (Tile.pay_apply (iblk m c 3 t) (iblk m c 0 t) (iblk m c 1 t) (iblk m c 2 t) (iblk m c 4 t) p q).trans ?_
  show entry _ _ _ _ _ p q = entry _ _ _ _ _ R C
  exact entry_congr _ _ _ _ _ _ _ _ _ _ p q R C (fun k => xblk_apply m c t p k R rfl) (fun k => sblk_apply m c t k)
    (fun g l => wblk_apply m c t q g l C rfl) (fun g => scblk_apply m c t q g C rfl) (bblk_apply m c t q C rfl)

/-! ## The cover, and the run -/

/-- An index of the result is in point `t`'s tile iff each coordinate is in the tile's range on its axis. -/
theorem mem_blk (t : Fin cfg0.N) (i : S2048x11008.Idx) :
    i ∈ ((cfg0.win 5).blk t).view.set ↔ ∀ a : Fin 2, win0_5.index t a * S256x256.size a ≤ (i a).val ∧ (i a).val < win0_5.index t a * S256x256.size a + S256x256.size a := by
  show i ∈ ((View.whole main_v0).slice (win0_5.rect t)).set ↔ _
  rw [View.set_slice_whole, Rect.mem_set_unit]
  exact Iff.rfl

/-- Every entry `(r, c)` of the result lies in the tile of point `r / 256 * 43 + c / 256`. -/
theorem cover (i : S2048x11008.Idx) :
    ∃ t : Fin cfg0.N, (cfg0.win 5).flush t = true ∧ i ∈ ((cfg0.win 5).blk t).view.set := by
  have hi0 : (i 0).val < 2048 := (i 0).isLt
  have hi1 : (i 1).val < 11008 := (i 1).isLt
  have hN : cfg0.N = 344 := N_0
  let t : Fin cfg0.N := ⟨(i 0).val / 256 * 43 + (i 1).val / 256, by rw [hN]; omega⟩
  have ht : t.val = (i 0).val / 256 * 43 + (i 1).val / 256 := rfl
  obtain ⟨-, -, -, -, -, -, -, -, -, -, e0, e1⟩ := idx_facts t
  refine ⟨t, flush0_5 t, ?_⟩
  rw [mem_blk]
  intro a
  match a with
  | ⟨0, _⟩ => show win0_5.index t 0 * 256 ≤ (i 0).val ∧ (i 0).val < win0_5.index t 0 * 256 + 256; rw [e0, ht]; omega
  | ⟨1, _⟩ => show win0_5.index t 1 * 256 ≤ (i 1).val ∧ (i 1).val < win0_5.index t 1 * 256 + 256; rw [e1, ht]; omega

/-- THE RESULT ARRAY after the run is the specification's function of the argument arrays. -/
theorem final (c : Dev nD) : (dats m 0 c).arrAt 5 cfg0.N = G m c :=
  (dats m 0 c).arrAt_eq_of_cover 5 (G m c) (fun t _ => flushed_eq m c t) cover

/-- The run, read: the result array at the specification's function of the arguments, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference, entry by entry.  Its last stage adds the bias row, broadcast over the 2048 rows, to the product of
  the smoothed activations `x / s` with the transpose of the dequantised weights re-laid as [11008, 4096]; read at
  `(r, c)` through the stages' index maps this is the specification's `entry` of the five arguments: the product's left
  index is `(r, k)`, its right index `(k, c)` goes through the transpose to `(c, k)` and through the reshape to group
  `k / 128`, lane `k % 128` of row `c`, and the scale's broadcast drops the lane.
-/
import proofs.«174794_j20847771255042_1_alg».proof.Proof.Gen.ReferenceIdeal.Read
import proofs.«174794_j20847771255042_1_alg».proof.Proof.Spec

noncomputable section

namespace Cert.ReferenceIdeal.RefValue

open Cert.ReferenceIdeal Cert.ReferenceIdeal.Read Idealize.ShloMosaic Idealize.ShloMosaic.ValueIdx Cert.GroupDequant

/-- The product's left index at output `(r, c)` and column `k`. -/
theorem lidx_eq (r : Fin 2048) (c : Fin 11008) (k : Fin 4096) : lidx_main_v8 (ix2 r c) k = ix2 r k :=
  funext fun a => Fin.ext (by match a with | ⟨0, _⟩ => rfl | ⟨1, _⟩ => rfl)

/-- The smoothing vector's index under the two broadcasts. -/
theorem sidx_eq (r : Fin 2048) (k : Fin 4096) : idx_main_v4 (idx_main_v5 (ix2 r k)) = ix1 k :=
  funext fun a => Fin.ext (by match a with | ⟨0, _⟩ => rfl)

/-- The product's right index `(k, c)` through the transpose and the reshape: row `c`, group `k / 128`, lane `k % 128`. -/
theorem widx_eq (r : Fin 2048) (c : Fin 11008) (k : Fin 4096) :
    idx_main_v3 (idx_main_v7 (ridx_main_v8 (ix2 r c) k)) = ix3 c (grp k) (lane k) := by
  have hk : k.val < 4096 := k.isLt
  have hc : c.val < 11008 := c.isLt
  funext a
  apply Fin.ext
  match a with
  | ⟨0, _⟩ => show (c.val * 4096 + k.val) / 4096 = c.val; omega
  | ⟨1, _⟩ => show (c.val * 4096 + k.val) / 128 % 32 = k.val / 128; omega
  | ⟨2, _⟩ => show (c.val * 4096 + k.val) % 128 = k.val % 128; omega

/-- The scale's index under its broadcast along the lanes. -/
theorem scidx_eq (c : Fin 11008) (g : Fin 32) (l : Fin 128) : idx_main_v1 (ix3 c g l) = ix3 c g (0 : Fin 1) :=
  funext fun a => Fin.ext (by match a with | ⟨0, _⟩ => rfl | ⟨1, _⟩ => rfl | ⟨2, _⟩ => rfl)

/-- The bias's index under the two broadcasts. -/
theorem bidx_eq (r : Fin 2048) (c : Fin 11008) : idx_main_v9 (idx_main_v10 (ix2 r c)) = ix1 c :=
  funext fun a => Fin.ext (by match a with | ⟨0, _⟩ => rfl)

/-- THE REFERENCE'S RESULT is the specification's function of its arguments. -/
theorem result_eq (x0 : FVec Ideal S2048x4096 .f32) (x1 : IVec S11008x32x128 32) (x2 : FVec Ideal S11008x32x1 .f32)
    (x3 : FVec Ideal S4096 .f32) (x4 : FVec Ideal S11008 .f32) :
    val_main_v11 (F := Ideal) x0 x1 x2 x3 x4 = whole x0 x3 x1 x2 x4 := by
  funext i
  obtain ⟨r, c, rfl⟩ : ∃ (r : Fin 2048) (c : Fin 11008), i = ix2 r c := ⟨i 0, i 1, eq_ix2 i⟩
  rw [whole_apply, val_main_v11_apply, val_main_v8_apply, val_main_v10_apply, val_main_v9_apply, bidx_eq]
  unfold entry
  refine congrArg (· + x4 (ix1 c)) (Finset.sum_congr rfl fun k _ => ?_)
  rw [val_main_v6_apply, val_main_v5_apply, val_main_v4_apply, val_main_v7_apply, val_main_v3_apply, val_main_v2_apply,
    val_main_v0_apply, val_main_v1_apply, lidx_eq, sidx_eq, widx_eq, scidx_eq]
  rfl

end Cert.ReferenceIdeal.RefValue

end
-- ==== Proof.lean ====
/-
  Group-wise dequantised matrix product with a smoothing scale: `(x / s) · (wq * sc)ᵀ + b`, for activations
  `x : f32[2048, 4096]`, a smoothing vector `s : f32[4096]`, integer weights `wq : i32[11008, 32, 128]` in 32 groups of
  128 columns with one scale per row and group `sc : f32[11008, 32, 1]`, and a bias `b : f32[11008]`.

  The kernel tiles the result 256 × 256 over an 8 × 43 grid and computes each tile from 256 rows of `x`, the whole of
  `s` and 256 rows of the weights, scales and bias, with all 4096 columns contracted in one matrix product into a
  zero accumulator (its operands rounded to bf16, which is the identity on the extended reals).  The reference
  computes the same on the whole arrays with one `dot_general`.  On the extended reals both results are, at `(r, c)`,

      (∑ k < 4096, x (r, k) / s k * (wq (c, k / 128, k % 128) * sc (c, k / 128, 0))) + b c,

  the same sum of the same terms: no algebraic law is needed beyond reading both programs' layouts at an index, and
  finiteness of the inputs is not used.  Proof/Spec.lean states that function, Proof/Tile.lean reads the kernel body
  at an entry, Proof/Whole.lean assembles the tiles into the whole array, Proof/RefValue.lean reads the reference.
  The frames are the generated ones; the reference's frame is its run with the result dropped; no operation was
  rewritten by the idealisation, so the preservation claim is trivial.
-/
import proofs.«174794_j20847771255042_1_alg».proof.Defs
import proofs.«174794_j20847771255042_1_alg».proof.Proof.Gen.Kernel
import proofs.«174794_j20847771255042_1_alg».proof.Proof.Gen.Kernel.Skeleton
import proofs.«174794_j20847771255042_1_alg».proof.Proof.Gen.Kernel.Launch
import proofs.«174794_j20847771255042_1_alg».proof.Proof.Gen.Kernel.Points
import proofs.«174794_j20847771255042_1_alg».proof.Proof.Gen.Kernel.Frame
import proofs.«174794_j20847771255042_1_alg».proof.Proof.Gen.KernelIdeal
import proofs.«174794_j20847771255042_1_alg».proof.Proof.Gen.KernelIdeal.Skeleton
import proofs.«174794_j20847771255042_1_alg».proof.Proof.Gen.KernelIdeal.Launch
import proofs.«174794_j20847771255042_1_alg».proof.Proof.Gen.KernelIdeal.Points
import proofs.«174794_j20847771255042_1_alg».proof.Proof.Gen.KernelIdeal.Frame
import proofs.«174794_j20847771255042_1_alg».proof.Proof.Gen.ReferenceIdeal
import proofs.«174794_j20847771255042_1_alg».proof.Proof.Gen.Pre_finite_inputs
import proofs.«174794_j20847771255042_1_alg».proof.Proof.Gen.KernelIdeal.Value
import proofs.«174794_j20847771255042_1_alg».proof.Proof.Gen.ReferenceIdeal.Run
import proofs.«174794_j20847771255042_1_alg».proof.Proof.Gen.ReferenceIdeal.Read
import proofs.«174794_j20847771255042_1_alg».proof.Proof.Whole
import proofs.«174794_j20847771255042_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel's result array ends at the specification's function of its arguments (the tiles
    assembled) and the reference's at the same function of its own (its last stage read at an index); the arguments agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v11_eq, Cert.ReferenceIdeal.RefValue.result_eq, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
